-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S16384x1 : Shape := ⟨2, ![16384, 1]⟩
abbrev S1024x3 : Shape := ⟨2, ![1024, 3]⟩
abbrev S1024x1 : Shape := ⟨2, ![1024, 1]⟩
abbrev S1024 : Shape := ⟨1, ![1024]⟩
abbrev S1x1024 : Shape := ⟨2, ![1, 1024]⟩
abbrev S3x1024 : Shape := ⟨2, ![3, 1024]⟩
abbrev S1024x1024 : Shape := ⟨2, ![1024, 1024]⟩
abbrev S16384 : Shape := ⟨1, ![16384]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x1, .f32⟩
  | .hbm, ⟨3, _⟩ => ⟨S16384, .f32⟩
  | .hbm, ⟨4, _⟩ => ⟨S_, .f32⟩
  | .hbm, ⟨5, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  inb_S1024x3_S1024x3_0_0 : ∀ a, (![0, 0] : Fin 2 → Nat) a + S1024x3.size a ≤ S1024x3.size a
  h_S1024x3 : 0 < S1024x3.numel
  reduces_S1024x3_S1024 : S1024x3.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x3_p1_0_S3x1024 : S1024x3.Transposes [1, 0] S3x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024x1_S1024x1 : S1024x1.ShapeCasts S1024x1
  shapeCasts_S16384x1_S16384 : S16384x1.ShapeCasts S16384
  reducesTo_S16384_S_d0 : S16384.ReducesTo [0] S_
  h_S_ : 0 < S_.numel
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S3x16384 : Shape := ⟨2, ![3, 16384]⟩
abbrev S16384x16384 : Shape := ⟨2, ![16384, 16384]⟩
abbrev S1x16384 : Shape := ⟨2, ![1, 16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S3x16384, .f32⟩
  | .hbm, ⟨10, _⟩ => ⟨S16384x16384, .f32⟩
  | .hbm, ⟨11, _⟩ => ⟨S_, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S1x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  transposes_S16384x3_S3x16384_1_0 : S16384x3.Transposes [1, 0] S3x16384
  bcast_S_S16384x16384 : S_.BroadcastsInDim S16384x16384 (![] : Fin 0 → Fin S16384x16384.rank)
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  reducesTo_S16384x16384_S16384_d1 : S16384x16384.ReducesTo [1] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.NearestSpec.lean ====
/-
  The mathematics both programs compute, stated once over the extended reals and free of any program.

  For point sets `x : [n, 3]` and `y : [m, 3]`, the squared distance from row `p` of `x` to row `q` of `y`
  is written in its expanded form `|x_p|² − 2·⟨x_p, y_q⟩ + |y_q|²`, the three sums running over the three
  coordinates; `nearest x y p` is the least of these over all `q`, folded from the bound `big` (the f32 word of
  +∞, kept as a word: it is the same word wherever it occurs, so it is never evaluated). A minimum is carried
  by its universal property: `z` is below it exactly when `z` is below the bound and below every squared
  distance (`le_nearest_iff`), and two extended reals with the same lower bounds are equal.
-/
import Idealize.ShloMosaic.PureOps.Ideal
import Idealize.ShloMosaic.Lib.ValueIdx
import Mathlib.Data.Finset.Fold

noncomputable section

namespace Cert.Nearest

open Idealize.ShloMosaic Idealize.ShloMosaic.ValueIdx

/-- The factor of the cross term: the f32 word of 2.0. -/
abbrev two : EReal := Ideal.ofBits .f32 0x40000000#32
/-- The bound every minimum starts from: the f32 word of +∞. -/
abbrev big : EReal := Ideal.ofBits .f32 0x7F800000#32

variable {n m : Nat}

/-- `|x_p|²`: the sum over the three coordinates of the squares. -/
def sqNorm (x : (⟨2, ![n, 3]⟩ : Shape).Idx → EReal) (p : Fin n) : EReal :=
  ∑ k : Fin 3, x (ix2 p k) * x (ix2 p k)

/-- `⟨x_p, y_q⟩`: the sum over the three coordinates of the products. -/
def inner (x : (⟨2, ![n, 3]⟩ : Shape).Idx → EReal) (y : (⟨2, ![m, 3]⟩ : Shape).Idx → EReal) (p : Fin n) (q : Fin m) : EReal :=
  ∑ k : Fin 3, x (ix2 p k) * y (ix2 q k)

/-- The squared distance in its expanded form, associated as both programs compute it. -/
def sqDist (x : (⟨2, ![n, 3]⟩ : Shape).Idx → EReal) (y : (⟨2, ![m, 3]⟩ : Shape).Idx → EReal) (p : Fin n) (q : Fin m) : EReal :=
  sqNorm x p - two * inner x y p q + sqNorm y q

/-- The least squared distance from row `p` of `x` to a row of `y`, from the bound. -/
def nearest (x : (⟨2, ![n, 3]⟩ : Shape).Idx → EReal) (y : (⟨2, ![m, 3]⟩ : Shape).Idx → EReal) (p : Fin n) : EReal :=
  (Finset.univ : Finset (Fin m)).fold min big (fun q => sqDist x y p q)

/-- The universal property of the minimum. -/
theorem le_nearest_iff (x : (⟨2, ![n, 3]⟩ : Shape).Idx → EReal) (y : (⟨2, ![m, 3]⟩ : Shape).Idx → EReal) (p : Fin n) (z : EReal) :
    z ≤ nearest x y p ↔ z ≤ big ∧ ∀ q : Fin m, z ≤ sqDist x y p q := by
  unfold nearest
  rw [Finset.le_fold_min]
  exact and_congr_right fun _ => ⟨fun h q => h q (Finset.mem_univ _), fun h q _ => h q⟩

/-- Two extended reals with the same lower bounds are equal. -/
theorem eq_of_le_iff {a b : EReal} (h : ∀ z, z ≤ a ↔ z ≤ b) : a = b :=
  le_antisymm ((h a).mp le_rfl) ((h b).mpr le_rfl)

end Cert.Nearest

end
-- ==== Proof.NearestLayout.lean ====
/-
  Small readings at an index, over any extents, of the layout steps and reductions the tile computation uses:
  a vector made a column, a column spread over the lanes, a sum along the lanes, a minimum along the lanes.
  Each says which ONE entry (or which family of entries) of the operand an entry of the result depends on.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Nearest

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over `(p)` with lane `k` put back is `(p, k)`. -/
theorem lift_lane {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the lanes of an `[a, b]` array, at row `p`: the sum over the lanes of that row's entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_lane h p k)

/-- A minimum along the lanes of an `[a, b]` array, at row `p`: the fold of `min`, from the accumulator's value,
    over the lanes of that row's entries. -/
theorem laneMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun k => src (ix2 p k)) := by
  rw [multiReduction_minimumf_eq_fold]
  refine (h.fold_filter_drop_single _ _ src (ix1 p)).trans ?_
  exact congrArg (Finset.fold _ _ · _) (funext fun k => congrArg src (lift_lane h p k))

end Cert.Nearest

end
-- ==== Proof.NearestTile.lean ====
/-
  One grid point's arithmetic, read at an index of the [1024, 1] column it leaves.

  The body takes a tile of 1024 rows of `x`, a tile of 1024 rows of `y` and the column `o` left by the point
  before. Row `r` of its result is the smaller of `o` at row `r` and the least, over the 1024 rows `q` of the
  `y` tile and from the bound, of `|x_r|² − 2·⟨x_r, y_q⟩ + |y_q|²`: the row norms are sums along the three lanes,
  the cross term one matrix product whose contraction runs over the three lanes (its operands' change of format
  is the identity on the extended reals, and the second operand's transposition only renames its index), and
  the two broadcasts put row `r`'s norm and row `q`'s norm at entry `(r, q)` of the 1024 × 1024 tile.
-/
import proofs.«139682_j39470749450747_1_alg».proof.Proof.Gen.KernelIdeal.Skeleton
import proofs.«139682_j39470749450747_1_alg».proof.Proof.NearestSpec
import proofs.«139682_j39470749450747_1_alg».proof.Proof.NearestLayout
import Idealize.ShloMosaic.Lib.ValueIdx
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen Cert.Nearest

/-! ## The matrix product's operand indices -/

theorem lhs_axis0 (i : S1024x1024.Idx) (q : dot_S1024x3_S3x1024_S1024x1024_1_0_0_1_n_n.contr.Idx) :
    (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
theorem lhs_axis1 (i : S1024x1024.Idx) (q : dot_S1024x3_S3x1024_S1024x1024_1_0_0_1_n_n.contr.Idx) :
    (dot_S1024x3_S3x1024_S1024x1024_1_0_0_1_n_n.lhsIdx i q 1).val = (q ⟨0, by decide⟩).val :=
  dot_S1024x3_S3x1024_S1024x1024_1_0_0_1_n_n.lhsIdx_val_of_single rfl i q
theorem rhs_axis0 (i : S1024x1024.Idx) (q : dot_S1024x3_S3x1024_S1024x1024_1_0_0_1_n_n.contr.Idx) :
    (dot_S1024x3_S3x1024_S1024x1024_1_0_0_1_n_n.rhsIdx i q 0).val = (q ⟨0, by decide⟩).val :=
  dot_S1024x3_S3x1024_S1024x1024_1_0_0_1_n_n.rhsIdx_val_of_single rfl i q
theorem rhs_axis1 (i : S1024x1024.Idx) (q : dot_S1024x3_S3x1024_S1024x1024_1_0_0_1_n_n.contr.Idx) :
    (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

/-- Entry `(r, q)` of the product of the `x` tile with the transposed `y` tile, into the zero accumulator, is the
    inner product of row `r` of `x` with row `q` of `y`. -/
theorem cross_apply (x y : Vec Ideal S1024x3 .f32) (r q : Fin 1024) :
    matmul dot_S1024x3_S3x1024_S1024x1024_1_0_0_1_n_n none (truncf .bf16 x bitsLt_bf16_f32)
        (transpose S3x1024 [1, 0] (truncf .bf16 y bitsLt_bf16_f32) transposes_S1024x3_p1_0_S3x1024)
        (constant (F := Ideal) S1024x1024 .f32 0x00000000#32) (ix2 r q)
      = Cert.Nearest.inner x y r q := by
  simp only [matmul]
  rw [Ideal.matmul_constant_zero_apply, ← Equiv.sum_comp (contrEquiv1 dot_S1024x3_S3x1024_S1024x1024_1_0_0_1_n_n 3 rfl rfl).symm]
  unfold Cert.Nearest.inner
  refine Finset.sum_congr rfl fun k _ => ?_
  have hk := contrEquiv1_symm_val dot_S1024x3_S3x1024_S1024x1024_1_0_0_1_n_n 3 rfl rfl k
  have el : dot_S1024x3_S3x1024_S1024x1024_1_0_0_1_n_n.lhsIdx (ix2 r q) ((contrEquiv1 dot_S1024x3_S3x1024_S1024x1024_1_0_0_1_n_n 3 rfl rfl).symm k) = ix2 r k := funext fun a => Fin.ext (by
    match a with
    | ⟨0, _⟩ => exact lhs_axis0 _ _
    | ⟨1, _⟩ => exact (lhs_axis1 _ _).trans hk)
  have er : dot_S1024x3_S3x1024_S1024x1024_1_0_0_1_n_n.rhsIdx (ix2 r q) ((contrEquiv1 dot_S1024x3_S3x1024_S1024x1024_1_0_0_1_n_n 3 rfl rfl).symm k) = ix2 k q := funext fun a => Fin.ext (by
    match a with
    | ⟨0, _⟩ => exact (rhs_axis0 _ _).trans hk
    | ⟨1, _⟩ => exact rhs_axis1 _ _)
  rw [el, er, transpose_ix2_apply]
  rfl

/-- Row `r` of the column of row norms of a tile. -/
theorem rowNorm_apply (v : Vec Ideal S1024x3 .f32) (h : S1024x3.Reduces [1] S1024) (hc : S1024.ShapeCasts S1024x1)
    (hφ : FKind.Formats .f32) (hacc : (0x00000000#32 : BitVec 32) = FKind.add.neutral .f32 hφ) (r : Fin 1024) (u : Fin 1) :
    shapeCast S1024x1 (multiReduction (F := Ideal) .add [1] S1024 (mulf v v) 0x00000000#32 h hφ hacc) hc (ix2 r u) = sqNorm v r := by
  refine (shapeCast_a_a1_apply _ hc r u).trans ?_
  refine (laneSum_apply (a := 1024) (b := 3) (mulf v v) _ h hφ hacc r).trans ?_
  rfl

/-- THE TILE: the body's result at row `r`. -/
theorem pay_apply (x y : Vec Ideal S1024x3 .f32) (o : Vec Ideal S1024x1 .f32) (r : Fin 1024) (u : Fin 1) :
    k0_pay2 (F := Ideal) x y o (ix2 r u)
      = min (o (ix2 r u)) ((Finset.univ : Finset (Fin 1024)).fold min big (fun q => sqDist x y r q)) := by
  unfold k0_pay2
  simp only [minimumf_apply, shapeCast_self, shapeCast_a_a1_apply]
  refine congrArg (min (o (ix2 r u))) ?_
  refine (laneMin_apply (a := 1024) (b := 1024) _ _ _ _ _ r).trans ?_
  refine congrArg (fun f => Finset.fold min big f Finset.univ) (funext fun q => ?_)
  simp only [addf_apply, subf_apply, mulf_apply, broadcast_apply]
  rw [broadcastTo_a1_ab_apply, broadcastTo_1b_ab_apply, transpose_ix2_apply]
  unfold sqDist
  refine congrArg₂ (fun a b : EReal => a + b) (congrArg₂ (fun a b : EReal => a - b) ?_ (congrArg (fun b : EReal => two * b) ?_)) ?_
  · exact rowNorm_apply x _ _ (.inl rfl) rfl r 0
  · exact cross_apply x y r q
  · exact rowNorm_apply y _ _ (.inl rfl) rfl q 0

end Cert.KernelIdeal.Tile

end
-- ==== Proof.NearestPieces.lean ====
/-
  What one grid point leaves in the output's [1024, 1] column, as a value, in each of the body's two cases.

  At the first point of a row of the grid the body first fills the column with the bound and then computes the
  tile over it; at every later point it computes the tile over what the point before left. In both cases the
  last store covers the whole column, so the column ends at that store's value: the tile's arithmetic
  (`k0_pay2`) of the two input tiles and of the column it read back — the bound's fill (`k0_pay1`) in the first
  case, the running column in the second.
-/
import proofs.«139682_j39470749450747_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- A later point of a grid row: the tile over the running column. -/
theorem out_B (c : Dev nD) (i : grid0.Coords) (a2 : Memref sig .tc .vmem S1024x3 .f32) (h2 : a2.IsWhole)
    (a3 : Memref sig .tc .vmem S1024x3 .f32) (h3 : a3.IsWhole) (a4 : Memref sig .tc .vmem S1024x1 .f32) (h4 : a4.IsWhole)
    (hc : ¬cond0_0 i) (x0 x1 : Vec F S1024x3 .f32) (xo : Vec F S1024x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S1024x3) hz,
    View.ld_unit_zero (S := S1024x1) hz]

/-- The first point of a grid row: the tile over the bound's fill. -/
theorem out_A (c : Dev nD) (i : grid0.Coords) (a2 : Memref sig .tc .vmem S1024x3 .f32) (h2 : a2.IsWhole)
    (a3 : Memref sig .tc .vmem S1024x3 .f32) (h3 : a3.IsWhole) (a4 : Memref sig .tc .vmem S1024x1 .f32) (h4 : a4.IsWhole)
    (hc : cond0_0 i) (x0 x1 : Vec F S1024x3 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1024x1) hz, View.readCov_unit_zero (S := S1024x1) _ hz]
  simp only [View.readAt_eq_ld, h2.read_unread, h3.read_unread, View.ld_unit_zero (S := S1024x3) hz,
    View.ld_unit_zero (S := S1024x1) hz, View.readCov_unit_zero (S := S1024x1) _ hz]

end Cert.KernelIdeal.Pieces

end
-- ==== Proof.NearestRun.lean ====
/-
  The kernel's run, read as values: its [16384, 1] result array ends holding, at row `p`, the least squared
  distance from row `p` of `x` to a row of `y`.

  The grid has 16 × 16 points; point `t` works on rows `(t / 16)·1024 …` of `x` against rows `(t % 16)·1024 …` of
  `y`, and the output column of a grid row is carried from point to point and written back after the row's last
  point. By induction along a grid row the carried column is, at each of its rows, the minimum from the bound
  over all rows of `y` seen so far — stated by its lower bounds: `z` is below it exactly when `z` is below the bound
  and below every squared distance to a row of `y` among the first `(t % 16 + 1)·1024`. After the row's last point
  that is every row of `y`, so what is written back is block `t / 16` of the spec's `nearest`; the blocks written
  back tile the array.
-/
import proofs.«139682_j39470749450747_1_alg».proof.Proof.Gen.KernelIdeal.Frame
import proofs.«139682_j39470749450747_1_alg».proof.Proof.NearestSpec
import proofs.«139682_j39470749450747_1_alg».proof.Proof.NearestTile
import proofs.«139682_j39470749450747_1_alg».proof.Proof.NearestPieces
import Idealize.ShloMosaic.Lib.Pipeline.Value
import Idealize.ShloMosaic.Lib.ValueIdx

noncomputable section

namespace Cert.KernelIdeal.Run

open Idealize.ShloMosaic Idealize.ShloMosaic.TcCoe Idealize.ShloMosaic.ValueIdx Idealize.SL.Sem
open Idealize.ShloMosaic.Pipeline (Dat)
open Cert.KernelIdeal Cert.KernelIdeal.Gen Cert.Nearest

variable (m : (ℓ : Loc nD τ sig) → Buf (Elt Ideal) ℓ) (ρ : Dev nD → PrngReg)

/-- The two point sets as the region finds them, -/
abbrev xs (c : Dev nD) : Vec Ideal S16384x3 .f32 := V m c main_arg0
abbrev ys (c : Dev nD) : Vec Ideal S16384x3 .f32 := V m c main_arg1
/-- and the tiles of them point `t` works on. -/
abbrev xtile (c : Dev nD) (t : Fin cfg0.N) : Vec Ideal S1024x3 .f32 := iblk m c 0 t
abbrev ytile (c : Dev nD) (t : Fin cfg0.N) : Vec Ideal S1024x3 .f32 := iblk m c 1 t

theorem lt256 (t : Fin cfg0.N) : t.val < 256 := lt_of_lt_of_eq t.isLt (show cfg0.N = 256 from N_0)

/-- Where the windows' blocks sit, decided once over the grid: the `x` tile and the output column move with
    `t / 16`, the `y` tile with `t % 16`. -/
theorem block_index : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- Row `r` of point `t`'s `x` tile is row `(t / 16)·1024 + r` of `x`. -/
abbrev xrow (t : Fin cfg0.N) (r : Fin 1024) : Fin 16384 := ⟨t.val / 16 * 1024 + r.val, by have := lt256 t; omega⟩
/-- Row `q` of point `t`'s `y` tile is row `(t % 16)·1024 + q` of `y`. -/
abbrev yrow (t : Fin cfg0.N) (q : Fin 1024) : Fin 16384 := ⟨t.val % 16 * 1024 + q.val, by have := lt256 t; omega⟩

theorem xtile_apply (c : Dev nD) (t : Fin cfg0.N) (r : Fin 1024) (k : Fin 3) :
    xtile m c t (ix2 r k) = xs m c (ix2 (xrow t r) k) := by
  obtain ⟨e0, e1, -, -, -, -⟩ := block_index t
  show V m c main_arg0 (((cfg0.win 0).blk t).view.emb (ix2 r k)) = V m c main_arg0 (ix2 (xrow t r) k)
  refine congrArg (V m c main_arg0) (funext fun a => Fin.ext ?_)
  match a with
  | ⟨0, _⟩ => show win0_0.index t (0 : Fin 2) * 1024 + 1 * r.val = t.val / 16 * 1024 + r.val; omega
  | ⟨1, _⟩ => show win0_0.index t (1 : Fin 2) * 3 + 1 * k.val = k.val; omega

theorem ytile_apply (c : Dev nD) (t : Fin cfg0.N) (q : Fin 1024) (k : Fin 3) :
    ytile m c t (ix2 q k) = ys m c (ix2 (yrow t q) k) := by
  obtain ⟨-, -, e0, e1, -, -⟩ := block_index t
  show V m c main_arg1 (((cfg0.win 1).blk t).view.emb (ix2 q k)) = V m c main_arg1 (ix2 (yrow t q) k)
  refine congrArg (V m c main_arg1) (funext fun a => Fin.ext ?_)
  match a with
  | ⟨0, _⟩ => show win0_1.index t (0 : Fin 2) * 1024 + 1 * q.val = t.val % 16 * 1024 + q.val; omega
  | ⟨1, _⟩ => show win0_1.index t (1 : Fin 2) * 3 + 1 * k.val = k.val; omega

/-- A squared distance inside the tiles is the squared distance between the rows of `x` and `y` they are. -/
theorem tile_dist (c : Dev nD) (t : Fin cfg0.N) (r q : Fin 1024) :
    sqDist (n := 1024) (m := 1024) (xtile m c t) (ytile m c t) r q = sqDist (n := 16384) (m := 16384) (xs m c) (ys m c) (xrow t r) (yrow t q) := by
  unfold sqDist sqNorm Cert.Nearest.inner
  simp only [xtile_apply, ytile_apply]

/-! ## The rows of `y` seen after `j + 1` tiles -/

/-- Below `(j + 1)·1024`: below `j·1024`, or in tile `j`. -/
theorem forall_lt_tile_succ (j : ℕ) (hj : j < 16) (P : Fin 16384 → Prop) :
    (∀ q : Fin 16384, q.val < (j + 1) * 1024 → P q) ↔
      (∀ q : Fin 16384, q.val < j * 1024 → P q) ∧ ∀ q' : Fin 1024, P ⟨j * 1024 + q'.val, by omega⟩ := by
  constructor
  · intro h
    exact ⟨fun q hq => h q (by omega), fun q' => h _ (by show j * 1024 + q'.val < (j + 1) * 1024; omega)⟩
  · rintro ⟨h1, h2⟩ q hq
    by_cases hlt : q.val < j * 1024
    · exact h1 q hlt
    · have h3 := h2 ⟨q.val - j * 1024, by omega⟩
      have e : (⟨j * 1024 + (q.val - j * 1024), by omega⟩ : Fin 16384) = q := Fin.ext (by show j * 1024 + (q.val - j * 1024) = q.val; omega)
      rw [e] at h3
      exact h3

/-! ## The carried column, by its lower bounds -/

/-- The first point of a grid row: the column is the tile's minimum from the bound. -/
theorem le_first (c : Dev nD) (t : Fin cfg0.N) (h0 : t.val % 16 = 0) (r : Fin 1024) (u : Fin 1) (z : EReal) :
    z ≤ outsAt0 m c t.val t.isLt (ix2 r u) ↔ z ≤ big ∧ ∀ q : Fin 1024, z ≤ sqDist (n := 1024) (m := 1024) (xtile m c t) (ytile m c t) r q := by
  have e : outsAt0 m c t.val t.isLt = k0_pay2 (F := Ideal) (xtile m c t) (ytile m c t) (k0_pay1 (F := Ideal)) :=
    (outsAt0_A m c t h0).trans (Pieces.out_A (F := Ideal) c (grid0.coords t) (ms0_0 t) (hs0_0 t) (ms0_1 t) (hs0_1 t) (ms0_2 t) (hs0_2 t)
      ((hcond0_0 t).mpr h0) (iblk m c 0 t) (iblk m c 1 t))
  rw [e, Tile.pay_apply, le_min_iff, Finset.le_fold_min]
  show z ≤ big ∧ z ≤ big ∧ _ ↔ _
  exact ⟨fun ⟨_, hb, h⟩ => ⟨hb, fun q => h q (Finset.mem_univ _)⟩, fun ⟨hb, h⟩ => ⟨hb, hb, fun q _ => h q⟩⟩

/-- A later point: the smaller of what the point before left and the tile's minimum. -/
theorem le_later (c : Dev nD) (t : Fin cfg0.N) (h0 : ¬t.val % 16 = 0) (r : Fin 1024) (u : Fin 1) (z : EReal) :
    z ≤ outsAt0 m c t.val t.isLt (ix2 r u) ↔
      z ≤ outsAt0 m c (t.val - 1) (Nat.lt_of_le_of_lt (Nat.sub_le _ _) t.isLt) (ix2 r u)
        ∧ z ≤ big ∧ ∀ q : Fin 1024, z ≤ sqDist (n := 1024) (m := 1024) (xtile m c t) (ytile m c t) r q := by
  have e : outsAt0 m c t.val t.isLt = k0_pay2 (F := Ideal) (xtile m c t) (ytile m c t)
      (outsAt0 m c (t.val - 1) (Nat.lt_of_le_of_lt (Nat.sub_le _ _) t.isLt)) :=
    (outsAt0_B m c t h0).trans (Pieces.out_B (F := Ideal) c (grid0.coords t) (ms0_0 t) (hs0_0 t) (ms0_1 t) (hs0_1 t) (ms0_2 t) (hs0_2 t)
      (fun h => h0 ((hcond0_0 t).mp h)) (iblk m c 0 t) (iblk m c 1 t) (outsAt0 m c (t.val - 1) (Nat.lt_of_le_of_lt (Nat.sub_le _ _) t.isLt)))
  rw [e, Tile.pay_apply, le_min_iff, Finset.le_fold_min]
  exact and_congr_right fun _ => ⟨fun ⟨hb, h⟩ => ⟨hb, fun q => h q (Finset.mem_univ _)⟩, fun ⟨hb, h⟩ => ⟨hb, fun q _ => h q⟩⟩

/-- THE INVARIANT along a grid row: after point `n` the carried column at row `r` has, as its lower bounds, the
    lower bounds of the bound and of every squared distance from row `(n / 16)·1024 + r` of `x` to one of the
    first `(n % 16 + 1)·1024` rows of `y`. -/
theorem carried_le_iff (c : Dev nD) : ∀ (n : ℕ) (hn : n < cfg0.N) (r : Fin 1024) (u : Fin 1) (z : EReal),
    z ≤ outsAt0 m c n hn (ix2 r u) ↔
      z ≤ big ∧ ∀ q : Fin 16384, q.val < (n % 16 + 1) * 1024 → z ≤ sqDist (n := 16384) (m := 16384) (xs m c) (ys m c) (xrow ⟨n, hn⟩ r) q := by
  intro n
  induction n with
  | zero =>
    intro hn r u z
    rw [le_first m c ⟨0, hn⟩ rfl r u z]
    refine and_congr_right fun _ => ?_
    rw [forall_lt_tile_succ 0 (by omega)]
    simp only [tile_dist]
    exact ⟨fun h => ⟨fun q hq => absurd hq (by omega), h⟩, fun h => h.2⟩
  | succ n ih =>
    intro hn r u z
    have h256 : n + 1 < 256 := lt256 ⟨n + 1, hn⟩
    by_cases h0 : (n + 1) % 16 = 0
    · rw [le_first m c ⟨n + 1, hn⟩ h0 r u z]
      refine and_congr_right fun _ => ?_
      rw [forall_lt_tile_succ ((n + 1) % 16) (by omega)]
      simp only [tile_dist]
      exact ⟨fun h => ⟨fun q hq => absurd hq (by omega), h⟩, fun h => h.2⟩
    · rw [le_later m c ⟨n + 1, hn⟩ h0 r u z]
      have ih' := ih (Nat.lt_of_succ_lt hn) r u z
      show z ≤ outsAt0 m c n _ (ix2 r u) ∧ _ ↔ _
      rw [ih', forall_lt_tile_succ ((n + 1) % 16) (by omega)]
      simp only [tile_dist]
      have hq : n / 16 = (n + 1) / 16 := by omega
      have hr : n % 16 + 1 = (n + 1) % 16 := by omega
      have ex : xrow ⟨n, Nat.lt_of_succ_lt hn⟩ r = xrow ⟨n + 1, hn⟩ r := Fin.ext (by show n / 16 * 1024 + r.val = (n + 1) / 16 * 1024 + r.val; rw [hq])
      rw [ex, hr]
      exact ⟨fun ⟨⟨hb, h1⟩, _, h2⟩ => ⟨hb, h1, h2⟩, fun ⟨hb, h1, h2⟩ => ⟨⟨hb, h1⟩, hb, h2⟩⟩

end Cert.KernelIdeal.Run

end
-- ==== Proof.NearestResult.lean ====
/-
  From the carried column to the program's two results.

  A grid row's last point (`t % 16 = 15`) writes its column back as block `t / 16` of the [16384, 1] array; by the
  invariant the column's lower bounds there are those of the bound and of EVERY squared distance, which are the
  lower bounds of the spec's `nearest`: so each block written back is that block of `nearest`, the sixteen blocks
  tile the array, and the array ends holding `nearest` at every row. The two lines after the region make the
  column a vector (the same entries) and sum it from zero.
-/
import proofs.«139682_j39470749450747_1_alg».proof.Proof.NearestRun
import Idealize.ShloMosaic.Lib.StableHlo.Run

noncomputable section

namespace Cert.KernelIdeal.Run

open Idealize.ShloMosaic Idealize.ShloMosaic.TcCoe Idealize.ShloMosaic.ValueIdx Idealize.SL.Sem
open Idealize.ShloMosaic.Pipeline (Dat)
open Cert.KernelIdeal Cert.KernelIdeal.Gen Cert.Nearest

variable (m : (ℓ : Loc nD τ sig) → Buf (Elt Ideal) ℓ) (ρ : Dev nD → PrngReg)

/-- What the [16384, 1] array ends holding: at row `p`, the least squared distance from row `p` of `x`. -/
abbrev column (c : Dev nD) : Buf (Elt Ideal) ((c : Thread nD τ).loc main_v0) :=
  fun i => nearest (n := 16384) (m := 16384) (xs m c) (ys m c) (i 0)

/-- Any contents of the array, read through point `t`'s block, are the contents under the block's indices. -/
theorem read_block (c : Dev nD) (G : Buf (Elt Ideal) ((c : Thread nD τ).loc main_v0)) (t : Fin cfg0.N)
    (j : ((cfg0.win 2).xblock (grid0.coords t)).Idx) :
    ((cfg0.win 2).blk t).view.read (Elt Ideal) G j = G (((cfg0.win 2).blk t).view.emb j) := rfl

/-- What a grid row's last point writes back is its block of `column`. -/
theorem flushed_eq (c : Dev nD) (t : Fin cfg0.N) (hf : (cfg0.win 2).flush t = true) :
    (dats m 0 c).flushed 2 t = ((cfg0.win 2).blk t).view.read (Elt Ideal) (column m c) := by
  have h15 : t.val % 16 = 15 := (flush0_2 t).mp hf
  obtain ⟨-, -, -, -, e0, e1⟩ := block_index t
  show (cfg0.win 2).cut (grid0.coords t) ((dats m 0 c).after 2 t) = _
  rw [after0_2]
  funext j
  rw [read_block]
  obtain ⟨r, u, rfl⟩ : ∃ (r : Fin 1024) (u : Fin 1), j = ix2 r u := ⟨j 0, j 1, eq_ix2 j⟩
  have ej : (cfg0.win 2).xinj (grid0.coords t) (ix2 r u) = ix2 r u :=
    funext fun a => Fin.ext (by match a with | ⟨0, _⟩ => rfl | ⟨1, _⟩ => rfl)
  show outsAt0 m c t.val t.isLt ((cfg0.win 2).xinj (grid0.coords t) (ix2 r u)) = _
  rw [ej]
  have eidx : ((cfg0.win 2).blk t).view.emb (ix2 r u) = ix2 (xrow t r) (0 : Fin 1) := funext fun a => Fin.ext (by
    match a with
    | ⟨0, _⟩ => show win0_2.index t (0 : Fin 2) * 1024 + 1 * r.val = t.val / 16 * 1024 + r.val; omega
    | ⟨1, _⟩ => show win0_2.index t (1 : Fin 2) * 1 + 1 * u.val = 0; omega)
  rw [eidx]
  refine eq_of_le_iff fun z => ?_
  rw [carried_le_iff m c t.val t.isLt r u z]
  refine Iff.trans ?_ (le_nearest_iff (n := 16384) (m := 16384) (xs m c) (ys m c) (xrow t r) z).symm
  exact and_congr_right fun _ => ⟨fun h q => h q (by have := q.isLt; omega), fun h q _ => h q⟩

/-- An index of the array is in point `t`'s block iff each coordinate is in the block's range on its axis. -/
theorem mem_block (t : Fin cfg0.N) (i : S16384x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- Every row is in the block some grid row's last point writes back. -/
theorem covered (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  have hN : cfg0.N = 256 := N_0
  let t : Fin cfg0.N := ⟨(i 0).val / 1024 * 16 + 15, by omega⟩
  obtain ⟨-, -, -, -, e0, e1⟩ := block_index t
  have tv : t.val = (i 0).val / 1024 * 16 + 15 := rfl
  refine ⟨t, (flush0_2 t).mpr (by omega), ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1 ≤ (i 1).val ∧ (i 1).val < win0_2.index t (1 : Fin 2) * 1 + 1; omega

/-- So the array ends holding `column`. -/
theorem final (c : Dev nD) : (dats m 0 c).arrAt 2 cfg0.N = column m c :=
  (dats m 0 c).arrAt_eq_of_cover 2 (column m c) (flushed_eq m c) covered

/-! ## The two lines after the region -/

/-- An `[a, 1]` column cast to an `[a]` vector reads, at `i`, the column at row `i`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The column as a vector: the spec's `nearest` at every row. -/
theorem vector_eq (c : Dev nD) :
    shapeCast S16384 (column m c) shapeCasts_S16384x1_S16384 = fun i : S16384.Idx => nearest (n := 16384) (m := 16384) (xs m c) (ys m c) (i 0) := by
  funext i
  obtain ⟨p, rfl⟩ : ∃ p : Fin 16384, i = ix1 p := ⟨i 0, eq_ix1 i⟩
  exact shapeCast_a1_a_apply (a := 16384) (column m c) shapeCasts_S16384x1_S16384 p

/-- The column, as the lines after the region find it in the array, made a vector. -/
theorem tail_vector (c : Dev nD) :
    shapeCast S16384 (Pipeline.withArrays (cfgs 0).spec c (V0 m c) (fun w => (dats m 0 c).arrAt w (cfgs 0).N) (Proc.devRef .tc main_v0))
        shapeCasts_S16384x1_S16384
      = fun i : S16384.Idx => nearest (n := 16384) (m := 16384) (xs m c) (ys m c) (i 0) :=
  (congrArg (fun v => shapeCast S16384 v shapeCasts_S16384x1_S16384)
    ((Pipeline.withArrays_arr spec0 launch0.win.arr_inj c _ _ 2).trans (final m c))).trans (vector_eq m c)

theorem tail_v1 (c : Dev nD) :
    Pipeline.afterTail₀ cfgs (dats m) 0 (V0 m) [hostOps1] c main_v1
      = fun i : S16384.Idx => nearest (n := 16384) (m := 16384) (xs m c) (ys m c) (i 0) := by
  unfold Pipeline.afterTail₀
  show StableHlo.after hostOps1 _ (Proc.devRef .tc main_v1) = _
  after_results
  exact tail_vector m c

theorem tail_v2 (c : Dev nD) :
    Pipeline.afterTail₀ cfgs (dats m) 0 (V0 m) [hostOps1] c main_v2
      = Host.reduceAdd (F := Ideal) (fun i : S16384.Idx => nearest (n := 16384) (m := 16384) (xs m c) (ys m c) (i 0))
          (constant S_ .f32 0x00000000#32) reducesTo_S16384_S_d0 h_S_ := by
  unfold Pipeline.afterTail₀
  show StableHlo.after hostOps1 _ (Proc.devRef .tc main_v2) = _
  after_results
  exact congrArg (fun v => Host.reduceAdd (F := Ideal) v (constant S_ .f32 0x00000000#32) reducesTo_S16384_S_d0 h_S_) (tail_vector m c)

/-! ## The run, read -/

theorem mem_rest_v1 : main_v1 ∈ Pipeline.restRefs sig (cfgs 0).spec :=
  Pipeline.mem_restRefs_of main_v1 rfl (by decide)
theorem mem_rest_v2 : main_v2 ∈ Pipeline.restRefs sig (cfgs 0).spec :=
  Pipeline.mem_restRefs_of main_v2 rfl (by decide)

/-- Every weakly fair execution of the program ends with the vector of least squared distances in its second result,
    their sum from zero in its first, and the two point sets unchanged. -/
theorem run : θ_run defs (onTc (τ := τ) (main (F := Ideal))) ⟨m, fun _ => 0, ρ⟩ fun r => ∀ c : Dev nD,
      r.2.mem ((c : Thread nD τ).loc main_v2)
          = Host.reduceAdd (F := Ideal) (fun i : S16384.Idx => nearest (n := 16384) (m := 16384) (xs m c) (ys m c) (i 0))
              (constant S_ .f32 0x00000000#32) reducesTo_S16384_S_d0 h_S_
      ∧ r.2.mem ((c : Thread nD τ).loc main_v1) = (fun i : S16384.Idx => nearest (n := 16384) (m := 16384) (xs m c) (ys m c) (i 0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v2 mem_rest_v2).trans (tail_v2 m c),
      ((h c).2 main_v1 mem_rest_v1).trans (tail_v1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.NearestRef.lean ====
/-
  The reference, read at an index: its [16384] result is the spec's `nearest`.

  Entry `(p, q)` of the reference's 16384 × 16384 array of squared distances is
  `|x_p|² − 2·⟨x_p, y_q⟩ + |y_q|²`: its two row-norm vectors are sums from zero along the three lanes, spread
  along the rows and along the columns by broadcasts that only rename the index, and its cross term is one
  matrix product with the transposed `y`. Its minimum along `q`, from the bound, is then `nearest x y p`.
-/
import proofs.«139682_j39470749450747_1_alg».proof.Proof.Gen.ReferenceIdeal.Read
import proofs.«139682_j39470749450747_1_alg».proof.Proof.NearestSpec
import proofs.«139682_j39470749450747_1_alg».proof.Proof.NearestLayout
import Idealize.ShloMosaic.PureOps.Reduce

noncomputable section

namespace Cert.ReferenceIdeal.NearestRead

open Idealize.ShloMosaic Idealize.ShloMosaic.ValueIdx Cert.ReferenceIdeal Cert.ReferenceIdeal.Gen Cert.ReferenceIdeal.Read Cert.Nearest

/-- Entry `(p, q)` of the reference's array of squared distances. -/
theorem dist_apply (x0 x1 : (⟨S16384x3, .f32⟩ : BufTy).Contents (Elt Ideal)) (p q : Fin 16384) :
    val_main_v13 (F := Ideal) x0 x1 (ix2 p q) = sqDist x0 x1 p q := by
  have e1 : ∀ k : Fin 3, idx_main_v1 (idx_main_v4 (idx_main_v9 (ix2 p q))) k = ix2 p k := fun k =>
    funext fun a => Fin.ext (by match a with | ⟨0, _⟩ => rfl | ⟨1, _⟩ => rfl)
  have e2 : ∀ k : Fin 3, lidx_main_v6 (ix2 p q) k = ix2 p k := fun k =>
    funext fun a => Fin.ext (by match a with | ⟨0, _⟩ => rfl | ⟨1, _⟩ => rfl)
  have e3 : ∀ k : Fin 3, idx_main_v5 (ridx_main_v6 (ix2 p q) k) = ix2 q k := fun k =>
    funext fun a => Fin.ext (by match a with | ⟨0, _⟩ => rfl | ⟨1, _⟩ => rfl)
  have e4 : ∀ k : Fin 3, idx_main_v3 (idx_main_v11 (idx_main_v12 (ix2 p q))) k = ix2 q k := fun k =>
    funext fun a => Fin.ext (by match a with | ⟨0, _⟩ => rfl | ⟨1, _⟩ => rfl)
  rw [val_main_v13_apply, val_main_v10_apply, val_main_v9_apply, val_main_v4_apply, val_main_v1_apply,
    val_main_v8_apply, val_main_v7_apply, val_main_v6_apply, val_main_v12_apply, val_main_v11_apply, val_main_v3_apply]
  simp only [e1, e2, e3, e4, val_main_v0_apply, val_main_v2_apply, val_main_v5_apply, val_main_cst_apply,
    val_main_cst_0_apply, val_main_cst_1_apply, Ideal.addf_def, Ideal.subf_def, Ideal.mulf_def, Ideal.ofBits_def,
    Ideal.ofBits_zero_f32, zero_add]
  rfl

/-- The reference's minimum along `q` is the spec's. -/
theorem nearest_apply (x0 x1 : (⟨S16384x3, .f32⟩ : BufTy).Contents (Elt Ideal)) (i : S16384.Idx) :
    val_main_v14 (F := Ideal) x0 x1 i = nearest x0 x1 (i 0) := by
  obtain ⟨p, rfl⟩ : ∃ p : Fin 16384, i = ix1 p := ⟨i 0, eq_ix1 i⟩
  have hr : S16384x16384.Reduces [1] S16384 := by decide
  unfold val_main_v14 nearest
  rw [Host.reduce_eq_fold_single FloatOps.minimumf _ _ reducesTo_S16384x16384_S16384_d1 hr h_S_ (ix1 p)]
  refine congrArg (fun f => Finset.fold min big f Finset.univ) (funext fun q => ?_)
  show val_main_v13 (F := Ideal) x0 x1 (hr.lift (ix1 p) q) = _
  rw [lift_lane hr p q]
  exact dist_apply x0 x1 p q

end Cert.ReferenceIdeal.NearestRead

end
-- ==== Proof.lean ====
/-
  One-sided nearest-neighbour squared distances between two sets of 16384 points in three dimensions, and their
  sum: the tiled kernel against the plain reference, over the extended reals.

  Both programs compute, for each row `p` of `x`, the least over the rows `q` of `y` — from the bound +∞ — of
  `|x_p|² − 2·⟨x_p, y_q⟩ + |y_q|²`, with the same association of the three terms, and then the sum of these
  16384 minima from zero. The reference takes the minimum over all 16384 rows at once. The kernel walks a
  16 × 16 grid of 1024 × 1024 tiles, keeps for each block of 1024 rows of `x` a running column of minima that it
  resets to the bound at the first tile of the block and lowers by each tile's minimum, and writes the column
  back after the block's last tile; its cross term is a matrix product of operands narrowed to bf16, which on
  the extended reals is no change. A minimum over all rows of `y` taken tile by tile is the minimum taken at
  once (a lower bound of every tile's minimum and of the bound is a lower bound of all), so the two vectors of
  minima are equal, entry by entry, and so are their sums: both are the same sum of the same vector.

  The modules: NearestSpec (the mathematics), NearestLayout (index readings of the layout steps), NearestTile
  (one tile's arithmetic at an index), NearestPieces (what a grid point leaves, in each case of the body),
  NearestRun (the invariant along a grid row), NearestResult (the array after the run and the two results),
  NearestRef (the reference at an index). Nothing here needs the inputs to be finite.
-/
import proofs.«139682_j39470749450747_1_alg».proof.Defs
import proofs.«139682_j39470749450747_1_alg».proof.Proof.Gen.Kernel
import proofs.«139682_j39470749450747_1_alg».proof.Proof.Gen.Kernel.Frame
import proofs.«139682_j39470749450747_1_alg».proof.Proof.Gen.KernelIdeal
import proofs.«139682_j39470749450747_1_alg».proof.Proof.Gen.KernelIdeal.Frame
import proofs.«139682_j39470749450747_1_alg».proof.Proof.Gen.ReferenceIdeal
import proofs.«139682_j39470749450747_1_alg».proof.Proof.Gen.Pre_finite_inputs
import proofs.«139682_j39470749450747_1_alg».proof.Proof.Gen.ReferenceIdeal.Run
import proofs.«139682_j39470749450747_1_alg».proof.Proof.Gen.ReferenceIdeal.Read
import proofs.«139682_j39470749450747_1_alg».proof.Proof.NearestResult
import proofs.«139682_j39470749450747_1_alg».proof.Proof.NearestRef
import Idealize.ShloMosaic.Adequacy
import Idealize.ShloMosaic.Init

noncomputable section

namespace Cert.Proof

open Idealize.ShloMosaic Idealize.ShloMosaic.TcCoe Idealize.SL.Sem Cert.Nearest

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the vector of least squared distances of the same two point sets, and its sum from zero. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ?_) (Cert.ReferenceIdeal.Value.run (F := Ideal) m' ρ')
  have e14 : ∀ x0 x1, Cert.ReferenceIdeal.Read.val_main_v14 (F := Ideal) x0 x1
      = fun i : Cert.ReferenceIdeal.S16384.Idx => nearest (n := 16384) (m := 16384) x0 x1 (i 0) :=
    fun x0 x1 => funext fun i => Cert.ReferenceIdeal.NearestRead.nearest_apply x0 x1 i
  refine ⟨(h c).1.trans ?_, (h c).2.1.trans ?_, (h c).2.2.1, (h c).2.2.2⟩
  · rw [Cert.ReferenceIdeal.Read.val_main_v15_eq, (hagree c).1, (hagree c).2]
    unfold Cert.ReferenceIdeal.Read.val_main_v15
    rw [e14]
    rfl
  · rw [Cert.ReferenceIdeal.Read.val_main_v14_eq, (hagree c).1, (hagree c).2, e14]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
